-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S11008x4096 : Shape := ⟨2, ![11008, 4096]⟩
abbrev S32x11008x2 : Shape := ⟨3, ![32, 11008, 2]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S32x11008x2 : S_.BroadcastsInDim S32x11008x2 (![] : Fin 0 → Fin S32x11008x2.rank)
  reducesTo_S32x11008x2_S_d0_1_2 : S32x11008x2.ReducesTo [0, 1, 2] S_

variable [Facts]

def fn {F : FTy → Type} [FloatOps F] (main_arg0 : FVec F S32x4096 .f32) (main_arg1 : IVec S11008x4096 32) (main_arg2 : FVec F S32x11008x2 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x11008x2 .f32 := Host.absf main_arg2
  let main_cst_0 : FVec F S_ .f32 := constant S_ .f32 0x7F800000#32
  let main_v5 : FVec F S32x11008x2 .f32 := broadcastInDim S32x11008x2 ![] bcast_S_S32x11008x2 main_cst_0
  let main_v6 : IVec S32x11008x2 1 := cmpf .olt main_v4 main_v5
  let main_c_1 : IVec S_ 1 := constantI S_ 1 1#1
  let main_v7 : IVec S_ 1 := (fun x v => Host.reduce IntOp.andi x v reducesTo_S32x11008x2_S_d0_1_2 h_S_) main_v6 main_c_1
  let main_v8 : IVec S_ 1 := andi main_v3 main_v7
  main_v8
-- ==== Kernel.lean ====
abbrev S32x4096 : Shape := ⟨2, ![32, 4096]⟩
abbrev S11008x4096 : Shape := ⟨2, ![11008, 4096]⟩
abbrev S32x11008x2 : Shape := ⟨3, ![32, 11008, 2]⟩
abbrev S11008x32x2 : Shape := ⟨3, ![11008, 32, 2]⟩
abbrev S32x11008 : Shape := ⟨2, ![32, 11008]⟩
abbrev S256x4096 : Shape := ⟨2, ![256, 4096]⟩
abbrev S256x32x2 : Shape := ⟨3, ![256, 32, 2]⟩
abbrev S32x256 : Shape := ⟨2, ![32, 256]⟩
abbrev S256x32x128 : Shape := ⟨3, ![256, 32, 128]⟩
abbrev S256x32x1 : Shape := ⟨3, ![256, 32, 1]⟩

abbrev nBuf : Space → Nat
  | .hbm => 5
  | .vmem => 7
  | .smem => 0
  | _ => 0

abbrev bufTy : (tb : Table) → Fin (tcTables nBuf tb) → BufTy
  | .hbm, ⟨0, _⟩ => ⟨S32x4096, .f32⟩
  | .hbm, ⟨1, _⟩ => ⟨S11008x4096, .i32⟩
  | .hbm, ⟨2, _⟩ => ⟨S32x11008x2, .f32⟩
  | .hbm, ⟨3, _⟩ => ⟨S11008x32x2, .f32⟩
  | .hbm, ⟨4, _⟩ => ⟨S32x11008, .f32⟩
  | .local _ .vmem, ⟨0, _⟩ => ⟨S32x4096, .f32⟩
  | .local _ .vmem, ⟨1, _⟩ => ⟨S256x4096, .i32⟩
  | .local _ .vmem, ⟨2, _⟩ => ⟨S256x4096, .i32⟩
  | .local _ .vmem, ⟨3, _⟩ => ⟨S256x32x2, .f32⟩
  | .local _ .vmem, ⟨4, _⟩ => ⟨S256x32x2, .f32⟩
  | .local _ .vmem, ⟨5, _⟩ => ⟨S32x256, .f32⟩
  | .local _ .vmem, ⟨6, _⟩ => ⟨S32x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x11008x2_S11008x32x2_1_0_2 : S32x11008x2.Transposes [1, 0, 2] S11008x32x2
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32x2_S256x32x1_0_0_0 : ∀ a, (![0, 0, 0] : Fin 3 → Nat) a + S256x32x1.size a ≤ S256x32x2.size a
  h_S256x32x1 : 0 < S256x32x1.numel
  shapeCasts_S256x32x1_S256x32x1 : S256x32x1.ShapeCasts S256x32x1
  inb_S256x32x2_S256x32x1_0_0_1 : ∀ a, (![0, 0, 1] : Fin 3 → Nat) a + S256x32x1.size a ≤ S256x32x2.size a
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  inb_S32x256_S32x256_0_0 : ∀ a, (![0, 0] : Fin 2 → Nat) a + S32x256.size a ≤ S32x256.size a
  h_S32x256 : 0 < S32x256.numel
  dot_S32x4096_S256x4096_S32x256_1_1_0_0_n_n_wf : DotDims.WF S32x4096 S256x4096 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32x2.size a ≤ S11008x32x2.size a
  hwx0_2 : ∀ i : grid0.Coords, EltTy.bits .f32 = 32 ∨ (Rect.block (s := S11008x32x2) S256x32x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x11008.size a
  hwx0_3 : ∀ i : grid0.Coords, EltTy.bits .f32 = 32 ∨ (Rect.block (s := S32x11008) S32x256.size (cc0_transform_3 i) (hinb0_3 i)).WholeWords (EltTy.packing .f32)

variable [Facts₀]

def dot_S32x4096_S256x4096_S32x256_1_1_0_0_n_n : DotDims S32x4096 S256x4096 S32x256 where
  lhsContracting := [1]
  rhsContracting := [1]
  lhsNonContracting := [0]
  rhsNonContracting := [0]
  lhsBatch := []
  rhsBatch := []
  wf := dot_S32x4096_S256x4096_S32x256_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x32x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096 : Shape := ⟨2, ![32, 4096]⟩
abbrev S11008x4096 : Shape := ⟨2, ![11008, 4096]⟩
abbrev S32x11008x2 : Shape := ⟨3, ![32, 11008, 2]⟩
abbrev S32x11008x1 : Shape := ⟨3, ![32, 11008, 1]⟩
abbrev S32x11008 : Shape := ⟨2, ![32, 11008]⟩
abbrev S11008x32x128 : Shape := ⟨3, ![11008, 32, 128]⟩
abbrev S_ : Shape := ⟨0, ![]⟩
abbrev S11008x32 : Shape := ⟨2, ![11008, 32]⟩
abbrev S11008x32x1 : Shape := ⟨3, ![11008, 32, 1]⟩
abbrev S4096x11008 : Shape := ⟨2, ![4096, 11008]⟩

abbrev nBuf : Space → Nat
  | .hbm => 23
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S11008x4096, .i32⟩
  | .hbm, ⟨2, _⟩ => ⟨S32x11008x2, .f32⟩
  | .hbm, ⟨3, _⟩ => ⟨S32x11008x1, .f32⟩
  | .hbm, ⟨4, _⟩ => ⟨S32x11008, .f32⟩
  | .hbm, ⟨5, _⟩ => ⟨S32x11008x1, .f32⟩
  | .hbm, ⟨6, _⟩ => ⟨S32x11008, .f32⟩
  | .hbm, ⟨7, _⟩ => ⟨S11008x32x128, .i32⟩
  | .hbm, ⟨8, _⟩ => ⟨S11008x32x128, .f32⟩
  | .hbm, ⟨9, _⟩ => ⟨S_, .f32⟩
  | .hbm, ⟨10, _⟩ => ⟨S11008x32x128, .f32⟩
  | .hbm, ⟨11, _⟩ => ⟨S11008x32x128, .f32⟩
  | .hbm, ⟨12, _⟩ => ⟨S11008x32, .f32⟩
  | .hbm, ⟨13, _⟩ => ⟨S11008x32x1, .f32⟩
  | .hbm, ⟨14, _⟩ => ⟨S11008x32x128, .f32⟩
  | .hbm, ⟨15, _⟩ => ⟨S11008x32x128, .f32⟩
  | .hbm, ⟨16, _⟩ => ⟨S11008x32, .f32⟩
  | .hbm, ⟨17, _⟩ => ⟨S11008x32x1, .f32⟩
  | .hbm, ⟨18, _⟩ => ⟨S11008x32x128, .f32⟩
  | .hbm, ⟨19, _⟩ => ⟨S11008x32x128, .f32⟩
  | .hbm, ⟨20, _⟩ => ⟨S11008x4096, .f32⟩
  | .hbm, ⟨21, _⟩ => ⟨S4096x11008, .f32⟩
  | .hbm, ⟨22, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  slices_S32x11008x2_S32x11008x1_0_0_0 : S32x11008x2.Slices ![0, 0, 0] S32x11008x1
  shapeCasts_S32x11008x1_S32x11008 : S32x11008x1.ShapeCasts S32x11008
  slices_S32x11008x2_S32x11008x1_0_0_1 : S32x11008x2.Slices ![0, 0, 1] S32x11008x1
  shapeCasts_S11008x4096_S11008x32x128 : S11008x4096.ShapeCasts S11008x32x128
  bcast_S_S11008x32x128 : S_.BroadcastsInDim S11008x32x128 (![] : Fin 0 → Fin S11008x32x128.rank)
  transposes_S32x11008_S11008x32_1_0 : S32x11008.Transposes [1, 0] S11008x32
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  dot_S32x4096_S4096x11008_S32x11008_1_0_0_1_n_n_wf : DotDims.WF S32x4096 S4096x11008 S32x11008 [1] [0] [0] [1] [] []

variable [Facts₀]

def dot_S32x4096_S4096x11008_S32x11008_1_0_0_1_n_n : DotDims S32x4096 S4096x11008 S32x11008 where
  lhsContracting := [1]
  rhsContracting := [0]
  lhsNonContracting := [0]
  rhsNonContracting := [1]
  lhsBatch := []
  rhsBatch := []
  wf := dot_S32x4096_S4096x11008_S32x11008_1_0_0_1_n_n_wf

class Facts : Prop extends Facts₀ where

variable [Facts]
-- ==== Proof.Spec.lean ====
/-
  The result both programs compute, as one function of the three argument arrays.

  The weight matrix is stored as small integer codes q[n, k], quantised in groups of 128 consecutive columns: column k
  belongs to group k / 128, and group g of row n carries a scale s[g, n, 0] and an offset s[g, n, 1]. The dequantised
  weight is w[n, k] = (q[n, k] - 8) * s[k / 128, n, 0] + s[k / 128, n, 1], and the result is the product with the
  transposed weights, out[r, n] = sum over k of x[r, k] * w[n, k].
-/
import Idealize.ShloMosaic.PureOps.Ideal.Laws
import Idealize.ShloMosaic.Lib.ValueIdx

noncomputable section

open scoped BigOperators

namespace Cert.GroupQuant

open Idealize.ShloMosaic Idealize.ShloMosaic.ValueIdx

/-- The quantisation group of column `k`: groups are runs of 128 consecutive columns. -/
def grp (k : Fin 4096) : Fin 32 := ⟨k.val / 128, by have := k.isLt; omega⟩

/-- The position of column `k` inside its group. -/
def pos (k : Fin 4096) : Fin 128 := ⟨k.val % 128, Nat.mod_lt _ (by decide)⟩

/-- A column is its group's first column plus its position in the group. -/
theorem grp_pos (k : Fin 4096) : (grp k).val * 128 + (pos k).val = k.val := by
  show k.val / 128 * 128 + k.val % 128 = k.val
  omega

/-- One dequantised weight from its code, its group's scale and its group's offset: (code - 8) * scale + offset,
    the code read as a signed integer and 8 the float the word 0x41000000 encodes. -/
def dequant (code : BitVec 32) (scale offset : EReal) : EReal :=
  (FloatOps.sitofp (F := Ideal) .f32 code - Ideal.ofBits .f32 0x41000000#32) * scale + offset

/-- The result at (r, n): the sum over the columns k of x[r, k] times the dequantised weight w[n, k]. -/
def result (x : FVec Ideal ⟨2, ![32, 4096]⟩ .f32) (q : IVec ⟨2, ![11008, 4096]⟩ 32) (s : FVec Ideal ⟨3, ![32, 11008, 2]⟩ .f32) :
    FVec Ideal ⟨2, ![32, 11008]⟩ .f32 :=
  fun i => ∑ k : Fin 4096, x (ix2 (i 0) k) *
    dequant (q (ix2 (i 1) k)) (s (ix3 (grp k) (i 1) (0 : Fin 2))) (s (ix3 (grp k) (i 1) (1 : Fin 2)))

end Cert.GroupQuant

end
-- ==== Proof.TileProduct.lean ====
/-
  What one grid point computes: the tile of 256 output columns.

  The body dequantises its 256 rows of codes and multiplies the 32 rows of x by the transposed result. Read at (r, n),
  with n the row inside the tile, it is the sum over the 4096 columns k of x[r, k] times
  (code[n, k] - 8) * scale[n, k / 128] + offset[n, k / 128]: the reshape to (row, group, position) and back leaves
  each entry at its own column, the broadcast along the position repeats a group's scale and offset over the group's
  128 columns, the narrowing of both operands is the identity on extended reals, and the product contracts the
  column axis of both operands.
-/
import proofs.«125420_j9062380994905_1_alg».proof.Proof.Gen.KernelIdeal.Skeleton
import proofs.«125420_j9062380994905_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.GroupQuant

/-! ## The product's operand indices: it contracts axis 1 of both operands -/

theorem lhs_row (i : S32x256.Idx) (q : dot_S32x4096_S256x4096_S32x256_1_1_0_0_n_n.contr.Idx) :
    (dot_S32x4096_S256x4096_S32x256_1_1_0_0_n_n.lhsIdx i q 0).val = (i 0).val := by
  unfold DotDims.lhsIdx
  rw [dif_neg (show ¬(0 : Fin S32x4096.rank) ∈ dot_S32x4096_S256x4096_S32x256_1_1_0_0_n_n.lhsBatch by decide), dif_pos (show (0 : Fin S32x4096.rank) ∈ dot_S32x4096_S256x4096_S32x256_1_1_0_0_n_n.lhsNonContracting by decide)]
  rfl
theorem lhs_col (i : S32x256.Idx) (q : dot_S32x4096_S256x4096_S32x256_1_1_0_0_n_n.contr.Idx) :
    (dot_S32x4096_S256x4096_S32x256_1_1_0_0_n_n.lhsIdx i q 1).val = (q ⟨0, by decide⟩).val :=
  dot_S32x4096_S256x4096_S32x256_1_1_0_0_n_n.lhsIdx_val_of_single rfl i q
theorem rhs_row (i : S32x256.Idx) (q : dot_S32x4096_S256x4096_S32x256_1_1_0_0_n_n.contr.Idx) :
    (dot_S32x4096_S256x4096_S32x256_1_1_0_0_n_n.rhsIdx i q 0).val = (i 1).val := by
  unfold DotDims.rhsIdx
  rw [dif_neg (show ¬(0 : Fin S256x4096.rank) ∈ dot_S32x4096_S256x4096_S32x256_1_1_0_0_n_n.rhsBatch by decide), dif_pos (show (0 : Fin S256x4096.rank) ∈ dot_S32x4096_S256x4096_S32x256_1_1_0_0_n_n.rhsNonContracting by decide)]
  rfl
theorem rhs_col (i : S32x256.Idx) (q : dot_S32x4096_S256x4096_S32x256_1_1_0_0_n_n.contr.Idx) :
    (dot_S32x4096_S256x4096_S32x256_1_1_0_0_n_n.rhsIdx i q 1).val = (q ⟨0, by decide⟩).val :=
  dot_S32x4096_S256x4096_S32x256_1_1_0_0_n_n.rhsIdx_val_of_single rfl i q

/-- The product into the zero accumulator, read at (r, n): the sum over k of the left operand at (r, k) times the right
    operand at (n, k). -/
theorem product_apply (l : FVec Ideal S32x4096 .bf16) (w : FVec Ideal S256x4096 .bf16) (r : Fin 32) (n : Fin 256) :
    matmul dot_S32x4096_S256x4096_S32x256_1_1_0_0_n_n none l w (constant S32x256 .f32 0x00000000#32) (ix2 r n)
      = ∑ k : Fin 4096, l (ix2 r k) * w (ix2 n k) := by
  simp only [matmul]
  rw [Ideal.matmul_constant_zero_apply, ← Equiv.sum_comp (contrEquiv1 dot_S32x4096_S256x4096_S32x256_1_1_0_0_n_n 4096 rfl rfl).symm]
  refine Finset.sum_congr rfl fun k _ => ?_
  have hk := contrEquiv1_symm_val dot_S32x4096_S256x4096_S32x256_1_1_0_0_n_n 4096 rfl rfl k
  have el : dot_S32x4096_S256x4096_S32x256_1_1_0_0_n_n.lhsIdx (ix2 r n) ((contrEquiv1 dot_S32x4096_S256x4096_S32x256_1_1_0_0_n_n 4096 rfl rfl).symm k) = ix2 r k := funext fun a => Fin.ext (by
    match a with
    | ⟨0, _⟩ => exact lhs_row _ _
    | ⟨1, _⟩ => exact (lhs_col _ _).trans hk)
  have er : dot_S32x4096_S256x4096_S32x256_1_1_0_0_n_n.rhsIdx (ix2 r n) ((contrEquiv1 dot_S32x4096_S256x4096_S32x256_1_1_0_0_n_n 4096 rfl rfl).symm k) = ix2 n k := funext fun a => Fin.ext (by
    match a with
    | ⟨0, _⟩ => exact rhs_row _ _
    | ⟨1, _⟩ => exact (rhs_col _ _).trans hk)
  rw [el, er]

/-! ## The body's layout operations read at an index -/

section Layout
variable {α : Type}

/-- Flattening (row, group, position) to (row, column): column k reads group k / 128 at position k % 128. -/
theorem flatten_apply (v : S256x32x128.Idx → α) (h : S256x32x128.ShapeCasts S256x4096) (n : Fin 256) (k : Fin 4096) :
    shapeCast S256x4096 v h (ix2 n k) = v (ix3 n (grp k) (pos k)) := by
  refine shapeCast_apply v h (ix2 n k) (ix3 n (grp k) (pos k)) ?_
  rw [Shape.rowMajor_val_three, Shape.rowMajor_val_two]
  show (n.val * 32 + (grp k).val) * 128 + (pos k).val = n.val * 4096 + k.val
  have := grp_pos k
  omega

/-- Regrouping (row, column) to (row, group, position): the entry of column k sits at its group and position. -/
theorem regroup_apply (v : S256x4096.Idx → α) (h : S256x4096.ShapeCasts S256x32x128) (n : Fin 256) (k : Fin 4096) :
    shapeCast S256x32x128 v h (ix3 n (grp k) (pos k)) = v (ix2 n k) := by
  refine shapeCast_apply v h (ix3 n (grp k) (pos k)) (ix2 n k) ?_
  rw [Shape.rowMajor_val_three, Shape.rowMajor_val_two]
  show n.val * 4096 + k.val = (n.val * 32 + (grp k).val) * 128 + (pos k).val
  have := grp_pos k
  omega

/-- A per-group value repeated along the position axis reads the group's one entry at every position. -/
theorem repeat_apply (v : S256x32x1.Idx → α) (h : S256x32x1.Broadcasts S256x32x128) (n : Fin 256) (g : Fin 32) (p : Fin 128) :
    broadcastTo S256x32x128 v h (ix3 n g p) = v (ix3 n g (0 : Fin 1)) := by
  refine broadcastTo_apply v h (ix3 n g p) (ix3 n g (0 : Fin 1)) fun a => ?_
  match a with
  | ⟨0, _⟩ => show n.val = if (256 : Nat) = 1 then 0 else n.val; rw [if_neg (by decide)]
  | ⟨1, _⟩ => show g.val = if (32 : Nat) = 1 then 0 else g.val; rw [if_neg (by decide)]
  | ⟨2, _⟩ => show 0 = if (1 : Nat) = 1 then 0 else p.val; rw [if_pos rfl]

end Layout

/-! ## The tile -/

/-- THE BODY'S RESULT AT (r, n): the sum over the columns of x[r, k] times the dequantised weight of row n, the scale and
    the offset of a column being its group's. -/
theorem tile_apply (codes : Vec Ideal S256x4096 .i32) (sc off : Vec Ideal S256x32x1 .f32) (xs : Vec Ideal S32x4096 .f32)
    (r : Fin 32) (n : Fin 256) :
    k0_pay1 (F := Ideal) codes sc off xs (ix2 r n)
      = ∑ k : Fin 4096, xs (ix2 r k) *
          dequant (codes (ix2 n k)) (sc (ix3 n (grp k) (0 : Fin 1))) (off (ix3 n (grp k) (0 : Fin 1))) := by
  unfold k0_pay1
  refine (product_apply _ _ r n).trans (Finset.sum_congr rfl fun k _ => ?_)
  refine congrArg (xs (ix2 r k) * ·) ?_
  refine (truncf_apply _ bitsLt_bf16_f32 (ix2 n k)).trans ?_
  refine (flatten_apply _ _ n k).trans ?_
  rw [addf_apply, mulf_apply, regroup_apply, repeat_apply, repeat_apply, shapeCast_self, shapeCast_self]
  rfl

end Cert.KernelIdeal.Tile

end
-- ==== Proof.KernelValue.lean ====
/-
  The kernel's result array.

  Grid point t computes the tile of output columns 256 t ... 256 t + 255 from all of x, rows 256 t ... of the codes and rows
  256 t ... of the transposed scales-and-offsets array; the 43 tiles fill the 11008 columns. So the array ends holding, at
  (r, n), the sum over k of x[r, k] * ((q[n, k] - 8) * st[n, k / 128, 0] + st[n, k / 128, 1]) with st the transposed array
  the host prefix wrote, st[n, g, j] = s[g, n, j]: that is `result`.
-/
import proofs.«125420_j9062380994905_1_alg».proof.Proof.Gen.KernelIdeal.Value
import proofs.«125420_j9062380994905_1_alg».proof.Proof.TileProduct
import Idealize.ShloMosaic.Lib.StableHlo.Run

noncomputable section

open scoped BigOperators

namespace Cert.KernelIdeal.Tiles

open Cert.KernelIdeal Cert.KernelIdeal.Gen Cert.KernelIdeal.Tile Cert.GroupQuant
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl

/-! ## One point's result over its three blocks -/

/-- The scale column of a block of scales-and-offsets: entry (n, g, 0). -/
theorem scale_of_block (b : Vec Ideal S256x32x2 .f32) (n : Fin 256) (g : Fin 32) :
    View.ld b r0_1 (ix3 n g (0 : Fin 1)) = b (ix3 n g (0 : Fin 2)) := by
  refine congrArg b (funext fun a => Fin.ext ?_)
  match a with
  | ⟨0, _⟩ => show 0 + 1 * n.val = n.val; omega
  | ⟨1, _⟩ => show 0 + 1 * g.val = g.val; omega
  | ⟨2, _⟩ => rfl

/-- The offset column of a block of scales-and-offsets: entry (n, g, 1). -/
theorem offset_of_block (b : Vec Ideal S256x32x2 .f32) (n : Fin 256) (g : Fin 32) :
    View.ld b r0_2 (ix3 n g (0 : Fin 1)) = b (ix3 n g (1 : Fin 2)) := by
  refine congrArg b (funext fun a => Fin.ext ?_)
  match a with
  | ⟨0, _⟩ => show 0 + 1 * n.val = n.val; omega
  | ⟨1, _⟩ => show 0 + 1 * g.val = g.val; omega
  | ⟨2, _⟩ => rfl

/-- What the body leaves in the output block, at (r, n), from the point's blocks of x, of the codes and of the
    scales-and-offsets. -/
theorem point_apply (bx : Vec Ideal S32x4096 .f32) (bq : Vec Ideal S256x4096 .i32) (bs : Vec Ideal S256x32x2 .f32)
    (r : Fin 32) (n : Fin 256) :
    out0_3 bx bq bs (ix2 r n) = ∑ k : Fin 4096, bx (ix2 r k) *
      dequant (bq (ix2 n k)) (bs (ix3 n (grp k) (0 : Fin 2))) (bs (ix3 n (grp k) (1 : Fin 2))) := by
  unfold out0_3
  rw [View.canon_unit_zero zero2]
  simp only [View.ld_unit_zero (S := S256x4096) zero2, View.ld_unit_zero (S := S32x4096) zero2]
  refine (tile_apply bq _ _ bx r n).trans (Finset.sum_congr rfl fun k _ => ?_)
  rw [scale_of_block, offset_of_block]

/-! ## Where a point's blocks sit in their arrays -/

/-- The printed index maps, decided over the 43 points: x is one block; the codes, the scales-and-offsets and the
    output move one block per point, along their row axis (the output: along its column axis). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = t.val :=
  (by decide +kernel : ∀ t : Fin grid0.N, _)

/-- The array column (the weights' row) under column n of tile t. -/
def col (t : Fin cfg0.N) (n : Fin 256) : Fin 11008 :=
  ⟨t.val * 256 + n.val, by have := t.isLt; have hN : cfg0.N = 43 := N_0; have := n.isLt; omega⟩

theorem out_emb (t : Fin cfg0.N) (r : Fin 32) (n : Fin 256) :
    ((cfg0.win 3).blk t).view.emb (ix2 r n) = (ix2 r (col t n) : S32x11008.Idx) := by
  obtain ⟨-, -, -, -, -, -, -, e0, e1⟩ := idx_facts t
  funext a; apply Fin.ext
  match a with
  | ⟨0, _⟩ => show win0_3.index t (0 : Fin 2) * 32 + 1 * r.val = r.val; omega
  | ⟨1, _⟩ => show win0_3.index t (1 : Fin 2) * 256 + 1 * n.val = t.val * 256 + n.val; omega

theorem x_emb (t : Fin cfg0.N) (r : Fin 32) (k : Fin 4096) :
    ((cfg0.win 0).blk t).view.emb (ix2 r k) = (ix2 r k : S32x4096.Idx) := by
  obtain ⟨e0, e1, -⟩ := idx_facts t
  funext a; apply Fin.ext
  match a with
  | ⟨0, _⟩ => show win0_0.index t (0 : Fin 2) * 32 + 1 * r.val = r.val; omega
  | ⟨1, _⟩ => show win0_0.index t (1 : Fin 2) * 4096 + 1 * k.val = k.val; omega

theorem codes_emb (t : Fin cfg0.N) (n : Fin 256) (k : Fin 4096) :
    ((cfg0.win 1).blk t).view.emb (ix2 n k) = (ix2 (col t n) k : S11008x4096.Idx) := by
  obtain ⟨-, -, e0, e1, -⟩ := idx_facts t
  funext a; apply Fin.ext
  match a with
  | ⟨0, _⟩ => show win0_1.index t (0 : Fin 2) * 256 + 1 * n.val = t.val * 256 + n.val; omega
  | ⟨1, _⟩ => show win0_1.index t (1 : Fin 2) * 4096 + 1 * k.val = k.val; omega

theorem scales_emb (t : Fin cfg0.N) (n : Fin 256) (g : Fin 32) (j : Fin 2) :
    ((cfg0.win 2).blk t).view.emb (ix3 n g j) = (ix3 (col t n) g j : S11008x32x2.Idx) := by
  obtain ⟨-, -, -, -, e0, e1, e2, -⟩ := idx_facts t
  funext a; apply Fin.ext
  match a with
  | ⟨0, _⟩ => show win0_2.index t (0 : Fin 3) * 256 + 1 * n.val = t.val * 256 + n.val; omega
  | ⟨1, _⟩ => show win0_2.index t (1 : Fin 3) * 32 + 1 * g.val = g.val; omega
  | ⟨2, _⟩ => show win0_2.index t (2 : Fin 3) * 2 + 1 * j.val = j.val; omega

/-! ## The whole array, over the arrays the region finds -/

/-- The array the tiles add up to, from x, the codes and the TRANSPOSED scales-and-offsets (row n, group g, j). -/
def tiles (x : FVec Ideal S32x4096 .f32) (q : IVec S11008x4096 32) (st : FVec Ideal S11008x32x2 .f32) : FVec Ideal S32x11008 .f32 :=
  fun i => ∑ k : Fin 4096, x (ix2 (i 0) k) *
    dequant (q (ix2 (i 1) k)) (st (ix3 (i 1) (grp k) (0 : Fin 2))) (st (ix3 (i 1) (grp k) (1 : Fin 2)))

/-- The three arrays the region finds, each at its literal type: x, the codes, and the transposed scales-and-offsets. -/
abbrev xArr (c : Dev nD) : FVec Ideal S32x4096 .f32 := V m c main_arg0
abbrev qArr (c : Dev nD) : IVec S11008x4096 32 := V m c main_arg1
abbrev stArr (c : Dev nD) : FVec Ideal S11008x32x2 .f32 := V m c main_v0

/-- WHAT POINT t WRITES BACK is block t of `tiles` of the arrays as the region finds them. -/
theorem flushed_eq (c : Dev nD) (t : Fin cfg0.N) :
    (dats m 0 c).flushed 3 t = ((cfg0.win 3).blk t).view.read (Elt Ideal)
      (tiles (xArr m c) (qArr m c) (stArr m c)) := by
  rw [Cert.KernelIdeal.Value.flushed3]
  funext j
  obtain ⟨r, n, rfl⟩ : ∃ (r : Fin 32) (n : Fin 256), j = ix2 r n := ⟨j 0, j 1, eq_ix2 j⟩
  show out0_3 (iblk m c 0 t) (iblk m c 1 t) (iblk m c 2 t) (ix2 r n)
    = tiles (xArr m c) (qArr m c) (stArr m c) (((cfg0.win 3).blk t).view.emb (ix2 r n))
  rw [out_emb]
  refine (point_apply (iblk m c 0 t) (iblk m c 1 t) (iblk m c 2 t) r n).trans ?_
  unfold tiles
  refine Finset.sum_congr rfl fun k _ => ?_
  show xArr m c (((cfg0.win 0).blk t).view.emb (ix2 r k)) *
      dequant (qArr m c (((cfg0.win 1).blk t).view.emb (ix2 n k)))
        (stArr m c (((cfg0.win 2).blk t).view.emb (ix3 n (grp k) (0 : Fin 2))))
        (stArr m c (((cfg0.win 2).blk t).view.emb (ix3 n (grp k) (1 : Fin 2))))
    = xArr m c (ix2 r k) *
      dequant (qArr m c (ix2 (col t n) k)) (stArr m c (ix3 (col t n) (grp k) (0 : Fin 2)))
        (stArr m c (ix3 (col t n) (grp k) (1 : Fin 2)))
  rw [x_emb, codes_emb, scales_emb, scales_emb]

/-! ## The 43 tiles fill the array -/

/-- An index of the array is in point t's block iff each coordinate is in the block's range on its axis. -/
theorem mem_blk (t : Fin cfg0.N) (i : S32x11008.Idx) :
    i ∈ ((cfg0.win 3).blk t).view.set ↔ ∀ a : Fin 2, win0_3.index t a * S32x256.size a ≤ (i a).val
      ∧ (i a).val < win0_3.index t a * S32x256.size a + S32x256.size a := by
  show i ∈ ((View.whole main_v1).slice (win0_3.rect t)).set ↔ _
  rw [View.set_slice_whole, Rect.mem_set_unit]
  exact Iff.rfl

/-- Column n of the array lies in the block of point n / 256. -/
theorem cover (i : S32x11008.Idx) : ∃ t : Fin cfg0.N, (cfg0.win 3).flush t = true ∧ i ∈ ((cfg0.win 3).blk t).view.set := by
  have hN : cfg0.N = 43 := N_0
  have hi0 : (i 0).val < 32 := (i 0).isLt
  have hi1 : (i 1).val < 11008 := (i 1).isLt
  refine ⟨⟨(i 1).val / 256, by omega⟩, flush0_3 _, ?_⟩
  rw [mem_blk]
  obtain ⟨-, -, -, -, -, -, -, e0, e1⟩ := idx_facts ⟨(i 1).val / 256, by omega⟩
  intro a
  match a with
  | ⟨0, _⟩ =>
    show win0_3.index ⟨(i 1).val / 256, _⟩ (0 : Fin 2) * 32 ≤ (i 0).val ∧ (i 0).val < win0_3.index ⟨(i 1).val / 256, _⟩ (0 : Fin 2) * 32 + 32
    rw [e0]; omega
  | ⟨1, _⟩ =>
    show win0_3.index ⟨(i 1).val / 256, _⟩ (1 : Fin 2) * 256 ≤ (i 1).val ∧ (i 1).val < win0_3.index ⟨(i 1).val / 256, _⟩ (1 : Fin 2) * 256 + 256
    rw [e1]; show (i 1).val / 256 * 256 ≤ (i 1).val ∧ (i 1).val < (i 1).val / 256 * 256 + 256; omega

/-! ## The arrays the region finds, from the arguments -/

/-- The host prefix wrote the scales-and-offsets transposed to (row, group, j). -/
theorem stArr_eq (c : Dev nD) :
    stArr m c = transpose S11008x32x2 [1, 0, 2] (m ((c : Thread nD τ).loc main_arg2)) transposes_S32x11008x2_S11008x32x2_1_0_2 := by
  show V m c main_v0 = _
  dsimp only [V, hostOps0]
  after_results

/-- The transposed array at (n, g, j) is the argument at (g, n, j). -/
theorem transposed_apply (s : FVec Ideal S32x11008x2 .f32) (h : S32x11008x2.Transposes [1, 0, 2] S11008x32x2)
    (n : Fin 11008) (g : Fin 32) (j : Fin 2) :
    transpose S11008x32x2 [1, 0, 2] s h (ix3 n g j) = s (ix3 g n j) :=
  transpose_apply [1, 0, 2] s h (ix3 n g j) (ix3 g n j) fun b => match b with
    | ⟨0, _⟩ => rfl
    | ⟨1, _⟩ => rfl
    | ⟨2, _⟩ => rfl

/-- Over the transposed scales-and-offsets the tiles add up to `result`. -/
theorem tiles_transposed (x : FVec Ideal S32x4096 .f32) (q : IVec S11008x4096 32) (s : FVec Ideal S32x11008x2 .f32)
    (h : S32x11008x2.Transposes [1, 0, 2] S11008x32x2) :
    tiles x q (transpose S11008x32x2 [1, 0, 2] s h) = result x q s := by
  funext i
  obtain ⟨r, n, rfl⟩ : ∃ (r : Fin 32) (n : Fin 11008), i = ix2 r n := ⟨i 0, i 1, eq_ix2 i⟩
  unfold tiles result
  refine Finset.sum_congr rfl fun k _ => ?_
  show x (ix2 r k) * dequant (q (ix2 n k)) (transpose S11008x32x2 [1, 0, 2] s h (ix3 n (grp k) (0 : Fin 2)))
      (transpose S11008x32x2 [1, 0, 2] s h (ix3 n (grp k) (1 : Fin 2)))
    = x (ix2 r k) * dequant (q (ix2 n k)) (s (ix3 (grp k) n (0 : Fin 2))) (s (ix3 (grp k) n (1 : Fin 2)))
  rw [transposed_apply, transposed_apply]

/-! ## The array after the run, and the run -/

/-- THE RESULT ARRAY after the run is `result` of the three argument arrays. -/
theorem final (c : Dev nD) : (dats m 0 c).arrAt 3 cfg0.N
    = result (m ((c : Thread nD τ).loc main_arg0)) (m ((c : Thread nD τ).loc main_arg1)) (m ((c : Thread nD τ).loc main_arg2)) := by
  rw [(dats m 0 c).arrAt_eq_of_cover 3 (tiles (xArr m c) (qArr m c) (stArr m c)) (fun t _ => flushed_eq m c t) cover,
    stArr_eq, tiles_transposed]
  show result (V m c main_arg0) (V m c main_arg1) _ = _
  rw [V_main_arg0, V_main_arg1]

/-- The frame run re-posted: the result array at `result` of the arguments, the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Tiles

end
-- ==== Proof.RefValue.lean ====
/-
  The reference computes `result`.

  The reference slices the scales and the offsets out of s, transposes each to (row, group), repeats it over the 128
  positions of a group, dequantises the codes regrouped as (row, group, position), flattens back to (row, column),
  transposes to (column, row) and contracts with x. Read at (r, n) this is the sum over the columns k of x[r, k] times
  (q[n, k] - 8) * s[k / 128, n, 0] + s[k / 128, n, 1]: every layout step moves an entry without changing it, and the
  index equations below say where each one comes from.
-/
import proofs.«125420_j9062380994905_1_alg».proof.Proof.Gen.ReferenceIdeal.Read
import proofs.«125420_j9062380994905_1_alg».proof.Proof.Spec

noncomputable section

open scoped BigOperators

namespace Cert.ReferenceIdeal.RefValue

open Cert.ReferenceIdeal Cert.ReferenceIdeal.Read Idealize.ShloMosaic Idealize.ShloMosaic.ValueIdx Cert.GroupQuant

/-- The transposed, flattened weights at (column k, row n) come from (row n, group of k, position of k). -/
theorem idx_weight (r : Fin 32) (n : Fin 11008) (k : Fin 4096) :
    idx_main_v16 (idx_main_v17 (ridx_main_v18 (ix2 r n) k)) = ix3 n (grp k) (pos k) := by
  funext a; refine Fin.ext ?_
  match a with
  | ⟨0, _⟩ => show (n.val * 4096 + k.val) / 4096 = n.val; have := k.isLt; omega
  | ⟨1, _⟩ => show (n.val * 4096 + k.val) / 128 % 32 = k.val / 128; have := k.isLt; omega
  | ⟨2, _⟩ => show (n.val * 4096 + k.val) % 128 = k.val % 128; omega

/-- The regrouped codes at (row n, group of k, position of k) are the codes at (n, k). -/
theorem idx_code (n : Fin 11008) (k : Fin 4096) : idx_main_v4 (ix3 n (grp k) (pos k)) = ix2 n k := by
  funext a; refine Fin.ext ?_
  match a with
  | ⟨0, _⟩ => show ((n.val * 32 + k.val / 128) * 128 + k.val % 128) / 4096 = n.val; have := k.isLt; omega
  | ⟨1, _⟩ => show ((n.val * 32 + k.val / 128) * 128 + k.val % 128) % 4096 = k.val; have := k.isLt; omega

/-- The repeated scale at (row n, group g, any position) is s[g, n, 0]. -/
theorem idx_scale (n : Fin 11008) (g : Fin 32) (p : Fin 128) :
    idx_main_v0 (idx_main_v1 (idx_main_v8 (idx_main_v9 (idx_main_v10 (ix3 n g p))))) = ix3 g n (0 : Fin 2) := by
  funext a; refine Fin.ext ?_
  match a with
  | ⟨0, _⟩ => show (g.val * 11008 + n.val) / 11008 = g.val; have := n.isLt; omega
  | ⟨1, _⟩ => show (g.val * 11008 + n.val) / 1 % 11008 = n.val; have := n.isLt; omega
  | ⟨2, _⟩ => rfl

/-- The repeated offset at (row n, group g, any position) is s[g, n, 1]. -/
theorem idx_offset (n : Fin 11008) (g : Fin 32) (p : Fin 128) :
    idx_main_v2 (idx_main_v3 (idx_main_v12 (idx_main_v13 (idx_main_v14 (ix3 n g p))))) = ix3 g n (1 : Fin 2) := by
  funext a; refine Fin.ext ?_
  match a with
  | ⟨0, _⟩ => show (g.val * 11008 + n.val) / 11008 = g.val; have := n.isLt; omega
  | ⟨1, _⟩ => show (g.val * 11008 + n.val) / 1 % 11008 = n.val; have := n.isLt; omega
  | ⟨2, _⟩ => rfl

/-- THE REFERENCE'S RESULT is `result` of the three argument arrays. -/
theorem reference_eq (x0 : FVec Ideal ⟨2, ![32, 4096]⟩ .f32) (x1 : IVec ⟨2, ![11008, 4096]⟩ 32) (x2 : FVec Ideal ⟨3, ![32, 11008, 2]⟩ .f32) :
    val_main_v18 (F := Ideal) x0 x1 x2 = result x0 x1 x2 := by
  funext i
  obtain ⟨r, n, rfl⟩ : ∃ (r : Fin 32) (n : Fin 11008), i = ix2 r n := ⟨i 0, i 1, eq_ix2 i⟩
  rw [val_main_v18_apply]
  refine Finset.sum_congr rfl fun k _ => ?_
  have el : lidx_main_v18 (ix2 r n) k = ix2 r k := funext fun a => by match a with | ⟨0, _⟩ => rfl | ⟨1, _⟩ => rfl
  rw [el, val_main_v17_apply, val_main_v16_apply, idx_weight, val_main_v15_apply, val_main_v11_apply, val_main_v7_apply,
    val_main_v5_apply, val_main_v4_apply, idx_code, val_main_v6_apply, val_main_cst_apply,
    val_main_v10_apply, val_main_v9_apply, val_main_v8_apply, val_main_v1_apply, val_main_v0_apply, idx_scale,
    val_main_v14_apply, val_main_v13_apply, val_main_v12_apply, val_main_v3_apply, val_main_v2_apply, idx_offset]
  rfl

end Cert.ReferenceIdeal.RefValue

end
-- ==== Proof.lean ====
/-
  A matrix product whose weights are dequantised on the fly: out[r, n] = sum over k of x[r, k] * w[n, k], with
  w[n, k] = (q[n, k] - 8) * s[k / 128, n, 0] + s[k / 128, n, 1], the codes q quantised in groups of 128 columns.

  The kernel computes 256 output columns per grid point from a block of codes and a block of the scales-and-offsets array,
  which the host first transposes to (row, group, j); the reference dequantises the whole weight matrix and takes one
  product. At the ideal instance the narrowing of the product's operands is the identity and both sides are the same sum,
  term by term: `Cert.GroupQuant.result` (Proof/Spec.lean). The kernel's array is that function by Proof/TileProduct.lean
  (one tile at an index) and Proof/KernelValue.lean (the tiles fill the array); the reference's by Proof/RefValue.lean.
  No law of arithmetic is used beyond reading both sums over the same index, so the inputs' finiteness is never opened.
  The idealisation rewrote nothing, so `preserves` is `True`.
-/
import proofs.«125420_j9062380994905_1_alg».proof.Defs
import proofs.«125420_j9062380994905_1_alg».proof.Proof.Gen.Kernel
import proofs.«125420_j9062380994905_1_alg».proof.Proof.Gen.Kernel.Skeleton
import proofs.«125420_j9062380994905_1_alg».proof.Proof.Gen.Kernel.Launch
import proofs.«125420_j9062380994905_1_alg».proof.Proof.Gen.Kernel.Points
import proofs.«125420_j9062380994905_1_alg».proof.Proof.Gen.Kernel.Frame
import proofs.«125420_j9062380994905_1_alg».proof.Proof.Gen.KernelIdeal
import proofs.«125420_j9062380994905_1_alg».proof.Proof.Gen.KernelIdeal.Skeleton
import proofs.«125420_j9062380994905_1_alg».proof.Proof.Gen.KernelIdeal.Launch
import proofs.«125420_j9062380994905_1_alg».proof.Proof.Gen.KernelIdeal.Points
import proofs.«125420_j9062380994905_1_alg».proof.Proof.Gen.KernelIdeal.Frame
import proofs.«125420_j9062380994905_1_alg».proof.Proof.Gen.ReferenceIdeal
import proofs.«125420_j9062380994905_1_alg».proof.Proof.Gen.Pre_finite_inputs
import proofs.«125420_j9062380994905_1_alg».proof.Proof.Gen.KernelIdeal.Value
import proofs.«125420_j9062380994905_1_alg».proof.Proof.Gen.ReferenceIdeal.Run
import proofs.«125420_j9062380994905_1_alg».proof.Proof.Gen.ReferenceIdeal.Read
import proofs.«125420_j9062380994905_1_alg».proof.Proof.KernelValue
import proofs.«125420_j9062380994905_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, the codes and the scales-and-offsets, both programs end with `result` of them. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _).trans ?_
  rw [Cert.ReferenceIdeal.RefValue.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
